-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x101 : Shape := ⟨2, ![262144, 101]⟩
abbrev S101x101 : Shape := ⟨2, ![101, 101]⟩
abbrev S_ : Shape := ⟨0, ![]⟩

class Facts : Prop where
  bcast_S_S262144x101 : S_.BroadcastsInDim S262144x101 (![] : Fin 0 → Fin S262144x101.rank)
  reducesTo_S262144x101_S_d0_1 : S262144x101.ReducesTo [0, 1] S_
  h_S_ : 0 < S_.numel
  bcast_S_S101x101 : S_.BroadcastsInDim S101x101 (![] : Fin 0 → Fin S101x101.rank)
  reducesTo_S101x101_S_d0_1 : S101x101.ReducesTo [0, 1] S_

variable [Facts]

def fn_part1 {F : FTy → Type} [FloatOps F] (main_arg4 : FVec F S101x101 .f32) (main_v13 : IVec S_ 1) (main_v16 : IVec S101x101 1) : IVec S_ 1 :=
  let main_c_5 : IVec S_ 1 := constantI S_ 1 1#1
  let main_v17 : IVec S_ 1 := (fun x v => Host.reduce IntOp.andi x v reducesTo_S101x101_S_d0_1 h_S_) main_v16 main_c_5
  let main_v18 : IVec S_ 1 := andi main_v13 main_v17
  let main_v19 : FVec F S101x101 .f32 := Host.absf main_arg4
  let main_cst_6 : FVec F S_ .f32 := constant S_ .f32 0x7F800000#32
  let main_v20 : FVec F S101x101 .f32 := broadcastInDim S101x101 ![] bcast_S_S101x101 main_cst_6
  let main_v21 : IVec S101x101 1 := cmpf .olt main_v19 main_v20
  let main_c_7 : IVec S_ 1 := constantI S_ 1 1#1
  let main_v22 : IVec S_ 1 := (fun x v => Host.reduce IntOp.andi x v reducesTo_S101x101_S_d0_1 h_S_) main_v21 main_c_7
  let main_v23 : IVec S_ 1 := andi main_v18 main_v22
  main_v23

def fn {F : FTy → Type} [FloatOps F] (main_arg0 : FVec F S262144x101 .f32) (main_arg1 : FVec F S101x101 .f32) (main_arg2 : FVec F S101x101 .f32) (main_arg3 : FVec F S101x101 .f32) (main_arg4 : FVec F S101x101 .f32) : IVec S_ 1 :=
  let main_v0 : FVec F S262144x101 .f32 := Host.absf main_arg0
  let main_cst : FVec F S_ .f32 := constant S_ .f32 0x7F800000#32
  let main_v1 : FVec F S262144x101 .f32 := broadcastInDim S262144x101 ![] bcast_S_S262144x101 main_cst
  let main_v2 : IVec S262144x101 1 := cmpf .olt main_v0 main_v1
  let main_c : IVec S_ 1 := constantI S_ 1 1#1
  let main_v3 : IVec S_ 1 := (fun x v => Host.reduce IntOp.andi x v reducesTo_S262144x101_S_d0_1 h_S_) main_v2 main_c
  let main_v4 : FVec F S101x101 .f32 := Host.absf main_arg1
  let main_cst_0 : FVec F S_ .f32 := constant S_ .f32 0x7F800000#32
  let main_v5 : FVec F S101x101 .f32 := broadcastInDim S101x101 ![] bcast_S_S101x101 main_cst_0
  let main_v6 : IVec S101x101 1 := cmpf .olt main_v4 main_v5
  let main_c_1 : IVec S_ 1 := constantI S_ 1 1#1
  let main_v7 : IVec S_ 1 := (fun x v => Host.reduce IntOp.andi x v reducesTo_S101x101_S_d0_1 h_S_) main_v6 main_c_1
  let main_v8 : IVec S_ 1 := andi main_v3 main_v7
  let main_v9 : FVec F S101x101 .f32 := Host.absf main_arg2
  let main_cst_2 : FVec F S_ .f32 := constant S_ .f32 0x7F800000#32
  let main_v10 : FVec F S101x101 .f32 := broadcastInDim S101x101 ![] bcast_S_S101x101 main_cst_2
  let main_v11 : IVec S101x101 1 := cmpf .olt main_v9 main_v10
  let main_c_3 : IVec S_ 1 := constantI S_ 1 1#1
  let main_v12 : IVec S_ 1 := (fun x v => Host.reduce IntOp.andi x v reducesTo_S101x101_S_d0_1 h_S_) main_v11 main_c_3
  let main_v13 : IVec S_ 1 := andi main_v8 main_v12
  let main_v14 : FVec F S101x101 .f32 := Host.absf main_arg3
  let main_cst_4 : FVec F S_ .f32 := constant S_ .f32 0x7F800000#32
  let main_v15 : FVec F S101x101 .f32 := broadcastInDim S101x101 ![] bcast_S_S101x101 main_cst_4
  let main_v16 : IVec S101x101 1 := cmpf .olt main_v14 main_v15
  fn_part1 (F := F) main_arg4 main_v13 main_v16
-- ==== Kernel.lean ====
abbrev S262144x101 : Shape := ⟨2, ![262144, 101]⟩
abbrev S101x101 : Shape := ⟨2, ![101, 101]⟩
abbrev S_ : Shape := ⟨0, ![]⟩
abbrev S8192x101 : Shape := ⟨2, ![8192, 101]⟩
abbrev S262144x101x1 : Shape := ⟨3, ![262144, 101, 1]⟩

abbrev nBuf : Space → Nat
  | .hbm => 14
  | .vmem => 5
  | .smem => 0
  | _ => 0

abbrev bufTy : (tb : Table) → Fin (tcTables nBuf tb) → BufTy
  | .hbm, ⟨0, _⟩ => ⟨S262144x101, .f32⟩
  | .hbm, ⟨1, _⟩ => ⟨S101x101, .f32⟩
  | .hbm, ⟨2, _⟩ => ⟨S101x101, .f32⟩
  | .hbm, ⟨3, _⟩ => ⟨S101x101, .f32⟩
  | .hbm, ⟨4, _⟩ => ⟨S101x101, .f32⟩
  | .hbm, ⟨5, _⟩ => ⟨S101x101, .f32⟩
  | .hbm, ⟨6, _⟩ => ⟨S101x101, .f32⟩
  | .hbm, ⟨7, _⟩ => ⟨S101x101, .f32⟩
  | .hbm, ⟨8, _⟩ => ⟨S101x101, .f32⟩
  | .hbm, ⟨9, _⟩ => ⟨S_, .f32⟩
  | .hbm, ⟨10, _⟩ => ⟨S101x101, .f32⟩
  | .hbm, ⟨11, _⟩ => ⟨S101x101, .f32⟩
  | .hbm, ⟨12, _⟩ => ⟨S262144x101, .f32⟩
  | .hbm, ⟨13, _⟩ => ⟨S262144x101x1, .f32⟩
  | .local _ .vmem, ⟨0, _⟩ => ⟨S8192x101, .f32⟩
  | .local _ .vmem, ⟨1, _⟩ => ⟨S8192x101, .f32⟩
  | .local _ .vmem, ⟨2, _⟩ => ⟨S101x101, .f32⟩
  | .local _ .vmem, ⟨3, _⟩ => ⟨S8192x101, .f32⟩
  | .local _ .vmem, ⟨4, _⟩ => ⟨S8192x101, .f32⟩
  | _, _ => ⟨S262144x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S101x101 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x101 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S101x101_S101x101_1_0 : S101x101.Transposes [1, 0] S101x101
  bcast_S_S101x101 : S_.BroadcastsInDim S101x101 (![] : Fin 0 → Fin S101x101.rank)
  inb_S8192x101_S8192x101_0_0 : ∀ a, (![0, 0] : Fin 2 → Nat) a + S8192x101.size a ≤ S8192x101.size a
  h_S8192x101 : 0 < S8192x101.numel
  inb_S101x101_S101x101_0_0 : ∀ a, (![0, 0] : Fin 2 → Nat) a + S101x101.size a ≤ S101x101.size a
  h_S101x101 : 0 < S101x101.numel
  shapeCasts_S101x101_S101x101 : S101x101.ShapeCasts S101x101
  bcast_S262144x101_S262144x101x1_0_1 : S262144x101.BroadcastsInDim S262144x101x1 (![0, 1] : Fin 2 → Fin S262144x101x1.rank)
  dot_S101x101_S101x101_S101x101_1_0_0_1_n_n_wf : DotDims.WF S101x101 S101x101 S101x101 [1] [0] [0] [1] [] []
  dot_S8192x101_S101x101_S8192x101_1_0_0_1_n_n_wf : DotDims.WF S8192x101 S101x101 S8192x101 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x101.size a ≤ S262144x101.size a
  hwx0_0 : ∀ i : grid0.Coords, EltTy.bits .f32 = 32 ∨ (Rect.block (s := S262144x101) S8192x101.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S101x101.size a ≤ S101x101.size a
  hwx0_1 : ∀ i : grid0.Coords, EltTy.bits .f32 = 32 ∨ (Rect.block (s := S101x101) S101x101.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x101.size a ≤ S262144x101.size a
  hwx0_2 : ∀ i : grid0.Coords, EltTy.bits .f32 = 32 ∨ (Rect.block (s := S262144x101) S8192x101.size (cc0_transform_2 i) (hinb0_2 i)).WholeWords (EltTy.packing .f32)

variable [Facts₀]

def dot_S101x101_S101x101_S101x101_1_0_0_1_n_n : DotDims S101x101 S101x101 S101x101 where
  lhsContracting := [1]
  rhsContracting := [0]
  lhsNonContracting := [0]
  rhsNonContracting := [1]
  lhsBatch := []
  rhsBatch := []
  wf := dot_S101x101_S101x101_S101x101_1_0_0_1_n_n_wf
def dot_S8192x101_S101x101_S8192x101_1_0_0_1_n_n : DotDims S8192x101 S101x101 S8192x101 where
  lhsContracting := [1]
  rhsContracting := [0]
  lhsNonContracting := [0]
  rhsNonContracting := [1]
  lhsBatch := []
  rhsBatch := []
  wf := dot_S8192x101_S101x101_S8192x101_1_0_0_1_n_n_wf

abbrev win0_0 : Pipeline.Window sig grid0 :=
  Pipeline.Window.ofSpec (Memref.whole main_arg0) S8192x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S101x101.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192x101.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x101 : Shape := ⟨2, ![262144, 101]⟩
abbrev S101x101 : Shape := ⟨2, ![101, 101]⟩
abbrev S_ : Shape := ⟨0, ![]⟩
abbrev S262144x101x1 : Shape := ⟨3, ![262144, 101, 1]⟩

abbrev nBuf : Space → Nat
  | .hbm => 14
  | .vmem => 0
  | .smem => 0
  | _ => 0

abbrev bufTy : (tb : Table) → Fin (tcTables nBuf tb) → BufTy
  | .hbm, ⟨0, _⟩ => ⟨S262144x101, .f32⟩
  | .hbm, ⟨1, _⟩ => ⟨S101x101, .f32⟩
  | .hbm, ⟨2, _⟩ => ⟨S101x101, .f32⟩
  | .hbm, ⟨3, _⟩ => ⟨S101x101, .f32⟩
  | .hbm, ⟨4, _⟩ => ⟨S101x101, .f32⟩
  | .hbm, ⟨5, _⟩ => ⟨S262144x101, .f32⟩
  | .hbm, ⟨6, _⟩ => ⟨S262144x101, .f32⟩
  | .hbm, ⟨7, _⟩ => ⟨S262144x101, .f32⟩
  | .hbm, ⟨8, _⟩ => ⟨S262144x101, .f32⟩
  | .hbm, ⟨9, _⟩ => ⟨S262144x101, .f32⟩
  | .hbm, ⟨10, _⟩ => ⟨S_, .f32⟩
  | .hbm, ⟨11, _⟩ => ⟨S262144x101, .f32⟩
  | .hbm, ⟨12, _⟩ => ⟨S262144x101, .f32⟩
  | .hbm, ⟨13, _⟩ => ⟨S262144x101x1, .f32⟩
  | _, _ => ⟨S262144x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S262144x101 : S_.BroadcastsInDim S262144x101 (![] : Fin 0 → Fin S262144x101.rank)
  bcast_S262144x101_S262144x101x1_0_1 : S262144x101.BroadcastsInDim S262144x101x1 (![0, 1] : Fin 2 → Fin S262144x101x1.rank)
  dot_S262144x101_S101x101_S262144x101_1_1_0_0_n_n_wf : DotDims.WF S262144x101 S101x101 S262144x101 [1] [1] [0] [0] [] []

variable [Facts₀]

def dot_S262144x101_S101x101_S262144x101_1_1_0_0_n_n : DotDims S262144x101 S101x101 S262144x101 where
  lhsContracting := [1]
  rhsContracting := [1]
  lhsNonContracting := [0]
  rhsNonContracting := [0]
  lhsBatch := []
  rhsBatch := []
  wf := dot_S262144x101_S101x101_S262144x101_1_1_0_0_n_n_wf

class Facts : Prop extends Facts₀ where

variable [Facts]
-- ==== Proof.Collapse.lean ====
/-
  THE COLLAPSED OPERATOR. The reference applies four fixed 101 × 101 matrices to each row x of the input in sequence:
  first the two "join" matrices J₃, J₄ (s = J₃ x, t = J₄ x), then the two transform matrices W₁, W₂, and divides by 101:
      ref(k) = ( Σₙ W₁(k,n) · (Σ_d x(d) · J₃(n,d))  −  Σₙ W₂(k,n) · (Σ_d x(d) · J₄(n,d)) ) / 101.
  The kernel multiplies the matrices together first, A(k,d) = Σₙ W₁(k,n) J₃(n,d) − Σₙ W₂(k,n) J₄(n,d), divides every
  entry of the transposed A by 101, and applies the one resulting matrix to the row:
      ker(k) = Σ_d x(d) · ( A(k,d) / 101 ).
  Over the reals the two agree: a finite double sum may be summed in either order, and a product distributes over a
  difference and over a sum. On the extended reals those laws fail at the infinities, so the equality is stated for
  entries that are (coercions of) reals, where every operation stays inside the reals and the division by the
  float 101 is the product with the real 1/101.
-/
import Idealize.ShloMosaic.PureOps.Ideal
import Idealize.ShloMosaic.Lib.ValueIdx

open scoped BigOperators

noncomputable section

namespace Cert.Collapse

open Idealize.ShloMosaic Idealize.ShloMosaic.ValueIdx

/-! ## The law over the reals -/

variable {D N : Type} [Fintype D] [Fintype N]

/-- A row applied to a product of two matrices is the second matrix applied after the first, summed in the other
    order: Σ_d x(d) · Σₙ w(n) · r(n,d) = Σₙ (Σ_d x(d) · r(n,d)) · w(n). -/
theorem sum_exchange (x : D → ℝ) (w : N → ℝ) (r : N → D → ℝ) :
    ∑ d, x d * ∑ n, w n * r n d = ∑ n, (∑ d, x d * r n d) * w n := by
  simp only [Finset.mul_sum, Finset.sum_mul]
  rw [Finset.sum_comm]
  exact Finset.sum_congr rfl fun n _ => Finset.sum_congr rfl fun d _ => by ring

/-- The collapsed operator applied to a row is the difference of the two sequential applications, scaled. -/
theorem real_law (x : D → ℝ) (w₁ w₂ : N → ℝ) (r₃ r₄ : N → D → ℝ) (s : ℝ) :
    ∑ d, x d * ((∑ n, w₁ n * r₃ n d - ∑ n, w₂ n * r₄ n d) * s)
      = (∑ n, (∑ d, x d * r₃ n d) * w₁ n - ∑ n, (∑ d, x d * r₄ n d) * w₂ n) * s := by
  rw [← sum_exchange x w₁ r₃, ← sum_exchange x w₂ r₄, ← Finset.sum_sub_distrib, Finset.sum_mul]
  exact Finset.sum_congr rfl fun d _ => by ring

/-! ## The same on extended reals that are reals -/

/-- The coercion of the reals into the extended reals carries a finite sum to the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float word 0x42CA0000 denotes the real 101. -/
theorem ofBits_101 : Ideal.ofBits .f32 0x42CA0000#32 = ((101 : ℝ) : EReal) := by
  simp [Ideal.ofBits, Ideal.ieee, -EReal.coe_mul]; norm_num

/-- THE LAW at real entries, with the division by the float 101 as both programs print it. -/
theorem ereal_law (x : D → ℝ) (w₁ w₂ : N → ℝ) (r₃ r₄ : N → D → ℝ) :
    ∑ d, (x d : EReal) * Ideal.div ((∑ n, (w₁ n : EReal) * (r₃ n d : EReal)) - ∑ n, (w₂ n : EReal) * (r₄ n d : EReal))
        (Ideal.ofBits .f32 0x42CA0000#32)
      = Ideal.div ((∑ n, (∑ d, (x d : EReal) * (r₃ n d : EReal)) * (w₁ n : EReal))
          - ∑ n, (∑ d, (x d : EReal) * (r₄ n d : EReal)) * (w₂ n : EReal)) (Ideal.ofBits .f32 0x42CA0000#32) := by
  rw [ofBits_101]
  simp only [Ideal.div_coe (by norm_num : (101 : ℝ) ≠ 0), ← EReal.coe_mul, ← coe_sum, ← EReal.coe_sub]
  exact congrArg _ (real_law x w₁ w₂ r₃ r₄ _)

/-! ## The two programs' results, entry by entry, over the arrays -/

/-- Entry (b, k) of the kernel's result: row b of the input against column k of the collapsed, scaled operator. -/
def kernelEntry (x : (⟨2, ![262144, 101]⟩ : Shape).Idx → EReal) (w₁ w₂ j₃ j₄ : (⟨2, ![101, 101]⟩ : Shape).Idx → EReal)
    (b : Fin 262144) (k : Fin 101) : EReal :=
  ∑ d : Fin 101, x (ix2 b d) * Ideal.div ((∑ n : Fin 101, w₁ (ix2 k n) * j₃ (ix2 n d)) - ∑ n : Fin 101, w₂ (ix2 k n) * j₄ (ix2 n d))
    (Ideal.ofBits .f32 0x42CA0000#32)

/-- Entry (b, k) of the reference's result: the join matrices applied to row b, then the transform matrices, the
    difference divided by 101. -/
def referenceEntry (x : (⟨2, ![262144, 101]⟩ : Shape).Idx → EReal) (w₁ w₂ j₃ j₄ : (⟨2, ![101, 101]⟩ : Shape).Idx → EReal)
    (b : Fin 262144) (k : Fin 101) : EReal :=
  Ideal.div ((∑ n : Fin 101, (∑ d : Fin 101, x (ix2 b d) * j₃ (ix2 n d)) * w₁ (ix2 k n))
    - ∑ n : Fin 101, (∑ d : Fin 101, x (ix2 b d) * j₄ (ix2 n d)) * w₂ (ix2 k n)) (Ideal.ofBits .f32 0x42CA0000#32)

/-- Where every entry of the five arrays is a real, the two results agree at every entry. -/
theorem kernelEntry_eq_referenceEntry (x : (⟨2, ![262144, 101]⟩ : Shape).Idx → EReal)
    (w₁ w₂ j₃ j₄ : (⟨2, ![101, 101]⟩ : Shape).Idx → EReal)
    (hx : ∀ i, ∃ r : ℝ, x i = r) (h₁ : ∀ i, ∃ r : ℝ, w₁ i = r) (h₂ : ∀ i, ∃ r : ℝ, w₂ i = r)
    (h₃ : ∀ i, ∃ r : ℝ, j₃ i = r) (h₄ : ∀ i, ∃ r : ℝ, j₄ i = r) (b : Fin 262144) (k : Fin 101) :
    kernelEntry x w₁ w₂ j₃ j₄ b k = referenceEntry x w₁ w₂ j₃ j₄ b k := by
  choose xr hxr using hx
  choose w₁r hw₁ using h₁
  choose w₂r hw₂ using h₂
  choose j₃r hj₃ using h₃
  choose j₄r hj₄ using h₄
  unfold kernelEntry referenceEntry
  simp only [hxr, hw₁, hw₂, hj₃, hj₄]
  exact ereal_law (fun d => xr (ix2 b d)) (fun n => w₁r (ix2 k n)) (fun n => w₂r (ix2 k n))
    (fun n d => j₃r (ix2 n d)) (fun n d => j₄r (ix2 n d))

end Cert.Collapse

end
-- ==== Proof.FiniteInputs.lean ====
/-
  FINITE INPUTS ARE REAL. The precondition says of each of the five input arrays that every entry's absolute value is
  below +∞, and joins the five statements by "and". An extended real is a real, +∞ or −∞, and |+∞| = |−∞| = +∞ is not
  below +∞; so under the precondition every entry of every input array is (the coercion of) a real number.
-/
import proofs.«140288_j26577257627813_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteInputs

open Idealize.ShloMosaic Cert.Pre_finite_inputs

/-- The shape with no axis has one index. -/
instance : Subsingleton S_.Idx := ⟨fun a b => funext fun d => d.elim0⟩

/-- The float word 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = r := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

variable [Facts]

/-- One `jnp.all(|a| < inf)` of the precondition that holds gives a real at every entry of `a`. -/
theorem real_of_all {s : Shape} {axes : List (Fin s.rank)} (a : FVec Ideal s .f32)
    (hb : S_.BroadcastsInDim s (![] : Fin 0 → Fin s.rank)) (hr : s.ReducesTo axes S_) (hS : 0 < S_.numel)
    (e : Host.reduce IntOp.andi (cmpf .olt (Host.absf a) (broadcastInDim s ![] hb (constant S_ .f32 0x7F800000#32)))
      (constantI S_ 1 1#1) hr hS ValueIdx.ix0 = 1#1) (i : s.Idx) : ∃ r : ℝ, a i = r :=
  real_of_abs_lt_inf (a i) (Host.reduce_andi_all _ _ hr hS ValueIdx.ix0 e i)

/-- Under the precondition every entry of every input array is a real. -/
theorem entries_real (a₀ : FVec Ideal S262144x101 .f32) (a₁ a₂ a₃ a₄ : FVec Ideal S101x101 .f32)
    (h : fn (F := Ideal) a₀ a₁ a₂ a₃ a₄ = fun _ => 1#1) :
    (∀ i, ∃ r : ℝ, a₀ i = r) ∧ (∀ i, ∃ r : ℝ, a₁ i = r) ∧ (∀ i, ∃ r : ℝ, a₂ i = r)
      ∧ (∀ i, ∃ r : ℝ, a₃ i = r) ∧ (∀ i, ∃ r : ℝ, a₄ i = r) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨e₀, e₁⟩, e₂⟩, e₃⟩, e₄⟩ := h0
  exact ⟨real_of_all a₀ Facts.bcast_S_S262144x101 Facts.reducesTo_S262144x101_S_d0_1 Facts.h_S_ e₀,
    real_of_all a₁ Facts.bcast_S_S101x101 Facts.reducesTo_S101x101_S_d0_1 Facts.h_S_ e₁,
    real_of_all a₂ Facts.bcast_S_S101x101 Facts.reducesTo_S101x101_S_d0_1 Facts.h_S_ e₂,
    real_of_all a₃ Facts.bcast_S_S101x101 Facts.reducesTo_S101x101_S_d0_1 Facts.h_S_ e₃,
    real_of_all a₄ Facts.bcast_S_S101x101 Facts.reducesTo_S101x101_S_d0_1 Facts.h_S_ e₄⟩

end Cert.FiniteInputs

end
-- ==== Proof.ReferenceEntry.lean ====
/-
  THE REFERENCE'S RESULT, ENTRY BY ENTRY. Before its last operation (which only appends an axis of extent one) the
  reference holds, at entry (b, k), the join matrices applied to row b of the input, the transform matrices applied to
  those, and the difference divided by 101: exactly `Collapse.referenceEntry`. Each matrix product of the reference
  contracts the second axis of both operands, so entry (b, n) of x · J₃ᵀ reads row b of x against row n of J₃, and
  entry (b, k) of the next product reads row b of that against row k of W₁.
-/
import proofs.«140288_j26577257627813_1_alg».proof.Proof.Gen.ReferenceIdeal.Read
import proofs.«140288_j26577257627813_1_alg».proof.Proof.Collapse

open scoped BigOperators

noncomputable section

namespace Cert.ReferenceIdeal.Entry

open Cert.ReferenceIdeal Cert.ReferenceIdeal.Gen Idealize.ShloMosaic Idealize.ShloMosaic.ValueIdx

/-- Row b of the left operand, at the contracted coordinate. -/
theorem row_of_left (b : Fin 262144) (k n : Fin 101) : Read.lidx_main_v2 (ix2 b k) n = ix2 b n :=
  funext fun a => by match a with | ⟨0, _⟩ => rfl | ⟨1, _⟩ => rfl
theorem row_of_left' (b : Fin 262144) (k n : Fin 101) : Read.lidx_main_v3 (ix2 b k) n = ix2 b n :=
  funext fun a => by match a with | ⟨0, _⟩ => rfl | ⟨1, _⟩ => rfl
/-- Row k of the transform matrix, at the contracted coordinate. -/
theorem row_of_transform (b : Fin 262144) (k n : Fin 101) : Read.ridx_main_v2 (ix2 b k) n = ix2 k n :=
  funext fun a => by match a with | ⟨0, _⟩ => rfl | ⟨1, _⟩ => rfl
theorem row_of_transform' (b : Fin 262144) (k n : Fin 101) : Read.ridx_main_v3 (ix2 b k) n = ix2 k n :=
  funext fun a => by match a with | ⟨0, _⟩ => rfl | ⟨1, _⟩ => rfl
/-- Row b of the input, at the contracted coordinate of the first product. -/
theorem row_of_input (b : Fin 262144) (n d : Fin 101) : Read.lidx_main_v0 (ix2 b n) d = ix2 b d :=
  funext fun a => by match a with | ⟨0, _⟩ => rfl | ⟨1, _⟩ => rfl
theorem row_of_input' (b : Fin 262144) (n d : Fin 101) : Read.lidx_main_v1 (ix2 b n) d = ix2 b d :=
  funext fun a => by match a with | ⟨0, _⟩ => rfl | ⟨1, _⟩ => rfl
/-- Row n of the join matrix, at the contracted coordinate of the first product. -/
theorem row_of_join (b : Fin 262144) (n d : Fin 101) : Read.ridx_main_v0 (ix2 b n) d = ix2 n d :=
  funext fun a => by match a with | ⟨0, _⟩ => rfl | ⟨1, _⟩ => rfl
theorem row_of_join' (b : Fin 262144) (n d : Fin 101) : Read.ridx_main_v1 (ix2 b n) d = ix2 n d :=
  funext fun a => by match a with | ⟨0, _⟩ => rfl | ⟨1, _⟩ => rfl

/-- The reference's quotient stage at entry (b, k). -/
theorem quotient_entry (x : FVec Ideal S262144x101 .f32) (w₁ w₂ j₃ j₄ : FVec Ideal S101x101 .f32)
    (b : Fin 262144) (k : Fin 101) :
    Read.val_main_v6 (F := Ideal) x w₁ w₂ j₃ j₄ (ix2 b k) = Cert.Collapse.referenceEntry x w₁ w₂ j₃ j₄ b k := by
  rw [Read.val_main_v6_apply, Read.val_main_v4_apply, Read.val_main_v2_apply, Read.val_main_v3_apply,
    Read.val_main_v5_apply, Read.val_main_cst_apply]
  simp only [row_of_left, row_of_left', row_of_transform, row_of_transform', Read.val_main_v0_apply, Read.val_main_v1_apply,
    row_of_input, row_of_input', row_of_join, row_of_join']
  rfl

/-- The reference's quotient stage as a whole array. -/
theorem quotient_eq (x : FVec Ideal S262144x101 .f32) (w₁ w₂ j₃ j₄ : FVec Ideal S101x101 .f32) :
    Read.val_main_v6 (F := Ideal) x w₁ w₂ j₃ j₄ = fun i => Cert.Collapse.referenceEntry x w₁ w₂ j₃ j₄ (i 0) (i 1) := by
  funext i
  obtain ⟨b, k, rfl⟩ : ∃ (b : Fin 262144) (k : Fin 101), i = ix2 b k := ⟨i 0, i 1, eq_ix2 i⟩
  exact quotient_entry x w₁ w₂ j₃ j₄ b k

end Cert.ReferenceIdeal.Entry

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Operator.lean ====
/-
  THE COLLAPSED OPERATOR, AS THE REGION FINDS IT. Before the pallas_call the program multiplies the transform matrices
  by the join matrices on the host (two plain 101 × 101 products, left operand contracted on its columns, right on its
  rows), subtracts, transposes and divides every entry by 101. The resulting array is the second operand of the
  region; its entry (d, k) is
      ( Σₙ W₁(k,n) · J₃(n,d)  −  Σₙ W₂(k,n) · J₄(n,d) ) / 101.
-/
import proofs.«140288_j26577257627813_1_alg».proof.Proof.Gen.KernelIdeal.Frame
import proofs.«140288_j26577257627813_1_alg».proof.Proof.LibPlainMatmul
import Idealize.ShloMosaic.Lib.Pipeline.Value
import Idealize.ShloMosaic.Lib.StableHlo.Run
import Idealize.ShloMosaic.PureOps.Ideal.Laws

open scoped BigOperators

noncomputable section

namespace Cert.KernelIdeal.Operator

open Cert.KernelIdeal Idealize.ShloMosaic Idealize.ShloMosaic.TcCoe Idealize.SL.Sem
open Idealize.ShloMosaic.StableHlo Idealize.ShloMosaic.ValueIdx

/-- A plain host product of two 101 × 101 matrices at entry (a, b): row a of the left against column b of the right. -/
theorem hostProduct_entry (A B : FVec Ideal S101x101 .f32) (a b : Fin 101) :
    Host.dotGeneral (F := Ideal) dot_S101x101_S101x101_S101x101_1_0_0_1_n_n none A B (ix2 a b) = ∑ n : Fin 101, A (ix2 a n) * B (ix2 n b) := by
  have hd : dot_S101x101_S101x101_S101x101_1_0_0_1_n_n = PlainMatmul.dims Facts₀.dot_S101x101_S101x101_S101x101_1_0_0_1_n_n_wf := rfl
  simp only [Host.dotGeneral]
  rw [hd, Ideal.dotGeneral_apply, ← Equiv.sum_comp (contrEquiv1 (PlainMatmul.dims Facts₀.dot_S101x101_S101x101_S101x101_1_0_0_1_n_n_wf) 101 rfl rfl).symm]
  exact Finset.sum_congr rfl fun n _ => by rw [PlainMatmul.lhsIdx_dims, PlainMatmul.rhsIdx_dims]

/-- The host operations before the region, as one function of the four matrices: the two products, their difference,
    its transpose, every entry divided by 101. -/
def operatorOf (w₁ w₂ j₃ j₄ : FVec Ideal S101x101 .f32) : FVec Ideal S101x101 .f32 :=
  Host.divf (F := Ideal) (transpose S101x101 [1, 0]
      (subf (F := Ideal) (Host.dotGeneral (F := Ideal) dot_S101x101_S101x101_S101x101_1_0_0_1_n_n none w₁ j₃)
        (Host.dotGeneral (F := Ideal) dot_S101x101_S101x101_S101x101_1_0_0_1_n_n none w₂ j₄))
      Facts₀.transposes_S101x101_S101x101_1_0)
    (broadcastInDim S101x101 ![] Facts₀.bcast_S_S101x101 (constant (F := Ideal) S_ .f32 0x42CA0000#32))

/-- Entry (d, k) of that array. -/
theorem operatorOf_entry (w₁ w₂ j₃ j₄ : FVec Ideal S101x101 .f32) (d k : Fin 101) :
    operatorOf w₁ w₂ j₃ j₄ (ix2 d k)
      = Ideal.div ((∑ n : Fin 101, w₁ (ix2 k n) * j₃ (ix2 n d)) - ∑ n : Fin 101, w₂ (ix2 k n) * j₄ (ix2 n d))
        (Ideal.ofBits .f32 0x42CA0000#32) := by
  unfold operatorOf
  show Ideal.div (transpose S101x101 [1, 0] _ Facts₀.transposes_S101x101_S101x101_1_0 (ix2 d k)) (Ideal.ofBits .f32 0x42CA0000#32) = _
  rw [transpose_apply _ _ _ (ix2 d k) (ix2 k d) (fun b => by match b with | ⟨0, _⟩ => rfl | ⟨1, _⟩ => rfl)]
  show Ideal.div (Host.dotGeneral (F := Ideal) dot_S101x101_S101x101_S101x101_1_0_0_1_n_n none w₁ j₃ (ix2 k d)
    - Host.dotGeneral (F := Ideal) dot_S101x101_S101x101_S101x101_1_0_0_1_n_n none w₂ j₄ (ix2 k d)) _ = _
  rw [hostProduct_entry, hostProduct_entry]

open Cert.KernelIdeal.Gen in
/-- The region's second operand is that function of the four matrix arguments as launched. -/
theorem operator_term (m : (ℓ : Loc nD τ sig) → Buf (Elt Ideal) ℓ) (c : Dev nD) :
    V m c main_v5 = operatorOf (m ((c : Thread nD τ).loc main_arg1)) (m ((c : Thread nD τ).loc main_arg2))
      (m ((c : Thread nD τ).loc main_arg3)) (m ((c : Thread nD τ).loc main_arg4)) := by
  show StableHlo.after hostOps0 (fun b => m (c, b)) (Proc.devRef .tc main_v5) = _
  after_results
  rfl

end Cert.KernelIdeal.Operator

end
-- ==== Proof.Region.lean ====
/-
  THE REGION AND THE TAIL. The pallas_call walks 32 grid points; point t takes rows 8192·t … 8192·t + 8191 of the input
  (all 101 columns) and the whole 101 × 101 operator, multiplies them into a zero accumulator and writes the product
  back as rows 8192·t … 8192·t + 8191 of the result. So block t of the result is block t of ONE whole-array function,
  the input times the operator, and the 32 blocks tile the 262144 rows: the array after the run is that product. The
  one host operation after the region appends an axis of extent one.
-/
import proofs.«140288_j26577257627813_1_alg».proof.Proof.Gen.KernelIdeal.Frame
import proofs.«140288_j26577257627813_1_alg».proof.Proof.LibPlainMatmul
import proofs.«140288_j26577257627813_1_alg».proof.Proof.Operator
import proofs.«140288_j26577257627813_1_alg».proof.Proof.Collapse
import Idealize.ShloMosaic.Lib.Pipeline.Value
import Idealize.ShloMosaic.Lib.StableHlo.Run
import Idealize.ShloMosaic.Lib.Tactic

set_option maxRecDepth 16384

open scoped BigOperators

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## The body's product at an entry -/

/-- The body's stored value at entry j = (p, q): row p of the input block against column q of the operator block. -/
theorem payload_at (x0 : Vec Ideal S8192x101 .f32) (x1 : Vec Ideal S101x101 .f32) (j : S8192x101.Idx) :
    k0_pay1 (F := Ideal) x0 x1 j = ∑ d : Fin 101, x0 (ix2 (j 0) d) * x1 (ix2 d (j 1)) := by
  obtain ⟨p, q, rfl⟩ : ∃ (p : Fin 8192) (q : Fin 101), j = ix2 p q := ⟨j 0, j 1, eq_ix2 j⟩
  unfold k0_pay1
  show matmul (F := Ideal) dot_S8192x101_S101x101_S8192x101_1_0_0_1_n_n none x0 (shapeCast S101x101 x1 Facts₀.shapeCasts_S101x101_S101x101)
    (constant (F := Ideal) S8192x101 .f32 0x00000000#32) (ix2 p q) = _
  rw [shapeCast_self]
  exact PlainMatmul.matmul_zero_apply _ Facts₀.dot_S8192x101_S101x101_S8192x101_1_0_0_1_n_n_wf rfl none x0 x1 p q

/-! ## The whole-array function -/

/-- The input times the operator: entry (b, k) is row b of the input against column k of the operator. -/
def product (x : FVec Ideal S262144x101 .f32) (a : FVec Ideal S101x101 .f32) : FVec Ideal S262144x101 .f32 :=
  fun i => ∑ d : Fin 101, x (ix2 (i 0) d) * a (ix2 d (i 1))

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input's and the result's block move together down the rows, one block
    per point, and no window moves along the columns; the operator's one block stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the arrays as the region finds them. -/
theorem flushed_eq (c : Dev nD) (t : Fin cfg0.N) :
    (dats m 0 c).flushed 2 t = ((cfg0.win 2).blk t).view.read (Elt Ideal) (product (V m c main_arg0) (V m c main_v5)) := by
  show (cfg0.win 2).cut (grid0.coords t) ((dats m 0 c).after 2 t) = _
  rw [after0_2]
  unfold out0_2
  rw [View.canon_unit_zero hz]
  simp only [View.ld_unit_zero (S := S8192x101) hz, View.ld_unit_zero (S := S101x101) hz]
  obtain ⟨e0, e1, e2, e3, e4, e5⟩ := idx_facts t
  funext j
  refine (payload_at (iblk m c 0 t) (iblk m c 1 t) j).trans ?_
  show _ = product (V m c main_arg0) (V m c main_v5) (((cfg0.win 2).blk t).view.emb j)
  unfold product
  refine Finset.sum_congr rfl fun d _ => ?_
  have hx : (iblk m c 0 t : Vec Ideal S8192x101 .f32) (ix2 (j 0) d)
      = (V m c main_arg0 : FVec Ideal S262144x101 .f32) (ix2 ((((cfg0.win 2).blk t).view.emb j) 0) d) := by
    show V m c main_arg0 (((cfg0.win 0).blk t).view.emb (ix2 (j 0) d)) = _
    refine congrArg _ (funext fun a => Fin.ext ?_)
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 101 + 1 * d.val = d.val; omega
  have ha : (iblk m c 1 t : Vec Ideal S101x101 .f32) (ix2 d (j 1))
      = (V m c main_v5 : FVec Ideal S101x101 .f32) (ix2 d ((((cfg0.win 2).blk t).view.emb j) 1)) := by
    show V m c main_v5 (((cfg0.win 1).blk t).view.emb (ix2 d (j 1))) = _
    refine congrArg _ (funext fun a => Fin.ext ?_)
    match a with
    | ⟨0, _⟩ => show win0_1.index t (0 : Fin 2) * 101 + 1 * d.val = d.val; omega
    | ⟨1, _⟩ => show win0_1.index t (1 : Fin 2) * 101 + 1 * (j 1).val = win0_2.index t (1 : Fin 2) * 101 + 1 * (j 1).val; omega
  rw [hx, ha]

/-- An index of the result is in point t's block iff each coordinate is in the block's range on its axis. -/
theorem mem_blk (t : Fin cfg0.N) (i : S262144x101.Idx) :
    i ∈ ((cfg0.win 2).blk t).view.set ↔ ∀ a : Fin 2, win0_2.index t a * S8192x101.size a ≤ (i a).val ∧ (i a).val < win0_2.index t a * S8192x101.size a + S8192x101.size a := by
  show i ∈ ((View.whole main_v6).slice (win0_2.rect t)).set ↔ _
  rw [View.set_slice_whole, Rect.mem_set_unit]
  exact Iff.rfl

/-- Row r of the result lies in the block of point r / 8192: the 32 blocks tile the rows. -/
theorem cover (i : S262144x101.Idx) : ∃ t : Fin cfg0.N, (cfg0.win 2).flush t = true ∧ i ∈ ((cfg0.win 2).blk t).view.set := by
  have hi0 : (i 0).val < 262144 := (i 0).isLt
  have hi1 : (i 1).val < 101 := (i 1).isLt
  have hN : cfg0.N = 32 := N_0
  obtain ⟨t, ht⟩ : ∃ t : Fin cfg0.N, t.val = (i 0).val / 8192 := ⟨⟨(i 0).val / 8192, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 101 ≤ (i 1).val ∧ (i 1).val < win0_2.index t (1 : Fin 2) * 101 + 101; omega

/-- THE ARRAY after the region: the product of the arrays as the region finds them. -/
theorem final (c : Dev nD) : (dats m 0 c).arrAt 2 cfg0.N = product (V m c main_arg0) (V m c main_v5) :=
  (dats m 0 c).arrAt_eq_of_cover 2 _ (fun t _ => flushed_eq m c t) cover

/-! ## The host operation after the region, and the run -/

/-- The program's result: the product as the region leaves it, with an axis of extent one appended. -/
theorem tail_eq (c : Dev nD) :
    Pipeline.afterTail₀ cfgs (dats m) 0 (V0 m) [hostOps1] c main_v7
      = broadcastInDim S262144x101x1 ![0, 1] Facts₀.bcast_S262144x101_S262144x101x1_0_1 (product (V m c main_arg0) (V m c main_v5)) := by
  unfold Pipeline.afterTail₀
  show StableHlo.after hostOps1 _ (Proc.devRef .tc main_v7) = _
  after_results
  exact congrArg _ ((Pipeline.withArrays_arr spec0 launch0.win.arr_inj c _ _ 2).trans (final m c))

/-- The input times the collapsed operator, entry by entry, is the specification's kernel entry. -/
theorem row_against_operator (x : FVec Ideal S262144x101 .f32) (w₁ w₂ j₃ j₄ : FVec Ideal S101x101 .f32)
    (b : Fin 262144) (k : Fin 101) :
    (∑ d : Fin 101, x (ix2 b d) * Operator.operatorOf w₁ w₂ j₃ j₄ (ix2 d k)) = Cert.Collapse.kernelEntry x w₁ w₂ j₃ j₄ b k := by
  unfold Cert.Collapse.kernelEntry
  exact Finset.sum_congr rfl fun d _ => by rw [Operator.operatorOf_entry]

/-- The same for the whole array. -/
theorem product_operator (x : FVec Ideal S262144x101 .f32) (w₁ w₂ j₃ j₄ : FVec Ideal S101x101 .f32) :
    product x (Operator.operatorOf w₁ w₂ j₃ j₄)
      = fun (i : S262144x101.Idx) => Cert.Collapse.kernelEntry x w₁ w₂ j₃ j₄ (i 0) (i 1) :=
  funext fun i => row_against_operator x w₁ w₂ j₃ j₄ (i 0) (i 1)

/-- THE RUN, READ: every weakly fair execution ends with the result at the kernel's entries of the argument arrays, an
    axis of extent one appended, and the arguments unchanged. -/
theorem run : θ_run defs (onTc (τ := τ) (main (F := Ideal))) ⟨m, fun _ => 0, ρ⟩ fun r => ∀ c : Dev nD,
      r.2.mem ((c.tc : Thread nD τ).loc main_v7)
        = broadcastInDim S262144x101x1 ![0, 1] Facts₀.bcast_S262144x101_S262144x101x1_0_1
          (fun (i : S262144x101.Idx) => Cert.Collapse.kernelEntry (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (((h c).2 main_v7 (Pipeline.mem_restRefs_of main_v7 (by decide) (by decide))).trans (tail_eq m c)).trans
        (by rw [V_main_arg0, Operator.operator_term, product_operator]),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Region

end
-- ==== Proof.lean ====
/-
  The certificate of a kernel that applies four fixed 101 × 101 matrices to every row of a 262144 × 101 input.
  The reference applies them in sequence (two "join" products, two "transform" products, a difference, a division by
  101); the kernel multiplies the matrices together on the host first and applies the one collapsed operator to
  8192 rows at a time. Over the reals the two are the same bilinear expression summed in two orders
  (`Collapse.real_law`); the precondition makes every input entry a real (`FiniteInputs.entries_real`), where the
  extended reals' arithmetic is the reals'. The reference's entries are read off its run operation by operation
  (`ReferenceIdeal.Entry`), the kernel's off the frame run: the host operations before the region
  (`KernelIdeal.Operator`), the body's product at an entry, the 32 blocks tiling the rows and the host operation
  after the region (`KernelIdeal.Region`). The ideal pass rewrote nothing, so `preserves` has nothing to state.
-/
import proofs.«140288_j26577257627813_1_alg».proof.Defs
import proofs.«140288_j26577257627813_1_alg».proof.Proof.Gen.Kernel
import proofs.«140288_j26577257627813_1_alg».proof.Proof.Gen.Kernel.Skeleton
import proofs.«140288_j26577257627813_1_alg».proof.Proof.Gen.Kernel.Launch
import proofs.«140288_j26577257627813_1_alg».proof.Proof.Gen.Kernel.Points
import proofs.«140288_j26577257627813_1_alg».proof.Proof.Gen.Kernel.Frame
import proofs.«140288_j26577257627813_1_alg».proof.Proof.Gen.KernelIdeal
import proofs.«140288_j26577257627813_1_alg».proof.Proof.Gen.KernelIdeal.Skeleton
import proofs.«140288_j26577257627813_1_alg».proof.Proof.Gen.KernelIdeal.Launch
import proofs.«140288_j26577257627813_1_alg».proof.Proof.Gen.KernelIdeal.Points
import proofs.«140288_j26577257627813_1_alg».proof.Proof.Gen.KernelIdeal.Frame
import proofs.«140288_j26577257627813_1_alg».proof.Proof.Gen.ReferenceIdeal
import proofs.«140288_j26577257627813_1_alg».proof.Proof.Gen.Pre_finite_inputs
import proofs.«140288_j26577257627813_1_alg».proof.Proof.Gen.ReferenceIdeal.Run
import proofs.«140288_j26577257627813_1_alg».proof.Proof.Gen.ReferenceIdeal.Read
import proofs.«140288_j26577257627813_1_alg».proof.Proof.Collapse
import proofs.«140288_j26577257627813_1_alg».proof.Proof.FiniteInputs
import proofs.«140288_j26577257627813_1_alg».proof.Proof.ReferenceEntry
import proofs.«140288_j26577257627813_1_alg».proof.Proof.Region
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the same array: at every entry the collapsed operator applied to the row is the sequential
    application, because under the precondition every entry involved is a real. -/
theorem algebraic : Cert.algebraic_KernelIdeal_ReferenceIdeal := by
  intro m ρ m' ρ' hpre hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨h0, h1, h2, h3, h4⟩ := Cert.FiniteInputs.entries_real _ _ _ _ _ (hpre c)
  rw [a0, a1, a2, a3, a4, Cert.ReferenceIdeal.Read.val_main_v7_eq]
  unfold Cert.ReferenceIdeal.Read.val_main_v7
  rw [Cert.ReferenceIdeal.Entry.quotient_eq]
  exact congrArg _ (funext fun i =>
    (Cert.Collapse.kernelEntry_eq_referenceEntry _ _ _ _ _ h0 h1 h2 h3 h4 (i 0) (i 1)).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
